-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_

variable [Facts]

def fn_part1 {F : FTy → Type} [FloatOps F] (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x16x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_v13 main_v16
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S2x16x2048x64, .f32⟩
  | .hbm, ⟨5, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .f32 = 32 ∨ (Rect.block (s := S2x16x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x64, .f32⟩
  | .hbm, ⟨9, _⟩ => ⟨S2x16x2048x64, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibRowSoftmax.lean ====
/-
  Row softmax on the extended reals, free of any program: normalising by a product with the reciprocal of the
  denominator against normalising by a quotient.

  For a row of scores `s : ι → EReal` the row maximum is the fold of `max` from −∞, each entry is shifted by it and
  exponentiated (`Ideal.exp`), and the row's denominator is the sum of those exponentials.  A weight is then either the
  exponential TIMES `Ideal.div 1` of the denominator (`wMul`), or `Ideal.div` of the exponential BY the denominator
  (`wDiv`).  The two agree as soon as the denominator is not zero (`wMul_eq_wDiv`; at a zero denominator and a zero
  numerator the first is `0 · ⊤ = 0` and the second the junk value `⊥`).  For a nonempty row of real scores the maximum
  is real (`rowMax_real`), every shifted score is real, every exponential is a positive real, so the denominator is
  positive (`rowDen_ne_zero`).  Also: a finite sum of coerced reals is the coerced real sum (`coe_sum`), and an array
  with no infinite entry is the coercion of a real array (`exists_real`).
-/
import Idealize.ShloMosaic.PureOps.Ideal.Laws

noncomputable section

namespace Cert.Attn

open Idealize.ShloMosaic

/-! ## A row -/

variable {ι : Type} [Fintype ι]

/-- The row's maximum, folded from −∞. -/
def rowMax (s : ι → EReal) : EReal := (Finset.univ : Finset ι).fold max ⊥ s

/-- An entry's exponential after the shift by the row's maximum. -/
def rowExp (s : ι → EReal) (j : ι) : EReal := Ideal.exp (s j - rowMax s)

/-- The row's denominator. -/
def rowDen (s : ι → EReal) : EReal := ∑ j, rowExp s j

/-- A weight, normalised by a PRODUCT with the denominator's reciprocal. -/
def wMul (s : ι → EReal) (j : ι) : EReal := rowExp s j * Ideal.div 1 (rowDen s)

/-- A weight, normalised by a QUOTIENT by the denominator. -/
def wDiv (s : ι → EReal) (j : ι) : EReal := Ideal.div (rowExp s j) (rowDen s)

/-- The exponential is never negative. -/
theorem exp_nonneg (x : EReal) : 0 ≤ Ideal.exp x := by
  induction x using EReal.rec with
  | bot => exact le_of_eq rfl
  | coe r => rw [Ideal.exp_coe]; exact_mod_cast (Real.exp_pos r).le
  | top => exact le_top

/-- Off a zero denominator the two normalisations are one number. -/
theorem wMul_eq_wDiv (s : ι → EReal) (j : ι) (h : rowDen s ≠ 0) : wMul s j = wDiv s j := by
  unfold wMul wDiv
  rw [Ideal.div, if_neg h, Ideal.div, if_neg h, one_mul]

/-- A nonempty row of real scores has a real maximum. -/
theorem rowMax_real [Nonempty ι] (s : ι → EReal) (hs : ∀ j, s j ≠ ⊥ ∧ s j ≠ ⊤) :
    rowMax s ≠ ⊤ ∧ rowMax s ≠ ⊥ := by
  constructor
  · refine ne_of_lt ?_
    unfold rowMax
    rw [Finset.fold_max_lt]
    exact ⟨bot_lt_top, fun j _ => lt_top_iff_ne_top.mpr (hs j).2⟩
  · refine ne_of_gt ?_
    unfold rowMax
    rw [Finset.lt_fold_max]
    obtain ⟨j0⟩ := ‹Nonempty ι›
    exact Or.inr ⟨j0, Finset.mem_univ _, bot_lt_iff_ne_bot.mpr (hs j0).1⟩

/-- A nonempty row of real scores has a positive denominator: every exponential is nonnegative and each is the
    exponential of a real number. -/
theorem rowDen_ne_zero [Nonempty ι] (s : ι → EReal) (hs : ∀ j, s j ≠ ⊥ ∧ s j ≠ ⊤) : rowDen s ≠ 0 := by
  obtain ⟨hM1, hM2⟩ := rowMax_real s hs
  obtain ⟨j0⟩ := ‹Nonempty ι›
  refine ne_of_gt (lt_of_lt_of_le ?_ (Finset.single_le_sum (f := rowExp s) (fun j _ => exp_nonneg _) (Finset.mem_univ j0)))
  unfold rowExp
  generalize rowMax s = M at hM1 hM2
  obtain ⟨h1, h2⟩ := hs j0
  generalize s j0 = x at h1 h2
  lift M to ℝ using ⟨hM1, hM2⟩
  lift x to ℝ using ⟨h2, h1⟩
  rw [← EReal.coe_sub, Ideal.exp_coe]
  exact_mod_cast Real.exp_pos _

/-- A finite sum of real numbers, taken in the extended reals, is the real sum. -/
theorem coe_sum {κ : Type} (s : Finset κ) (f : κ → ℝ) : (∑ d ∈ s, (f d : EReal)) = ((∑ d ∈ s, f d : ℝ) : EReal) := by
  classical
  refine Finset.induction_on s ?_ ?_
  · simp
  · intro a s ha ih
    rw [Finset.sum_insert ha, Finset.sum_insert ha, ih, EReal.coe_add]

/-- An array of real numbers is the coercion of a real array. -/
theorem exists_real {κ : Type} (f : κ → EReal) (hf : ∀ i, f i ≠ ⊥ ∧ f i ≠ ⊤) : ∃ g : κ → ℝ, ∀ i, f i = (g i : EReal) :=
  ⟨fun i => (f i).toReal, fun i => (EReal.coe_toReal (hf i).2 (hf i).1).symm⟩

end Cert.Attn

end
-- ==== Proof.Consts.lean ====
/-
  The float constants the two programs spell, as the extended reals their patterns denote, and the one relation
  between them the proof needs: `1 / sqrt 64`, as the reference computes its scale, is the kernel's constant `0.125`,
  because the square root of `64` is `8`.
-/
import Idealize.ShloMosaic.PureOps.Ideal.Laws

noncomputable section

namespace Cert.Attn

open Idealize.ShloMosaic

/-! ## The constants -/

/-- The pattern of `1.0` denotes `1`. -/
theorem ofBits_one : Ideal.ofBits .f32 0x3F800000#32 = 1 := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `-inf` denotes `⊥`. -/
theorem ofBits_neg_inf : Ideal.ofBits .f32 0xFF800000#32 = ⊥ := by
  simp [Ideal.ofBits, Ideal.ieee]

/-- `1 / sqrt 64`, as the host computes it, is the constant `0.125`: the square root of `64` is `8`. -/
theorem scale_eq :
    Ideal.div (Ideal.ofBits .f32 0x3F800000#32) (Ideal.sqrt (Ideal.ofBits .f32 0x42800000#32))
      = Ideal.ofBits .f32 0x3E000000#32 := by
  rw [ofBits_one, ofBits_64, ofBits_eighth]
  have h8 : Real.sqrt 64 = 8 := by
    rw [show (64 : ℝ) = 8 ^ 2 by norm_num]; exact Real.sqrt_sq (by norm_num)
  show Ideal.div 1 (if (64 : ℝ) < 0 then ⊥ else (Real.sqrt 64 : EReal)) = _
  rw [if_neg (by norm_num), h8, Ideal.div_coe (by norm_num), one_mul]

end Cert.Attn

end
-- ==== Proof.Spec.lean ====
/-
  What the attention computes, as functions of whole arrays, free of any program.

  For batch `b`, head `h` and query row `i` the row of scores is
  `j ↦ ∑ d, (q[b,h,i,d] · 1/8) · k[b,h,j,d] + bias[b,h,i,j]`; the weights are that row's softmax, and the output at
  `(b,h,i,d)` is `∑ j, weights[b,h,i,j] · v[b,h,j,d]`.  The softmax is written twice — normalised by a product with the
  reciprocal of the denominator, and by a quotient — and for arrays of real numbers the two are one array: every score
  is then a real number, so every row's denominator is positive.
-/
import proofs.«411776_j6262062318235_3_alg».proof.Proof.LibRowSoftmax
import proofs.«411776_j6262062318235_3_alg».proof.Proof.Consts
import Idealize.ShloMosaic.Lib.ValueIdx

noncomputable section

namespace Cert.Attn

open Idealize.ShloMosaic Idealize.ShloMosaic.ValueIdx

/-- Indices of a query, key or value array and of the output: batch, head, row, feature. -/
abbrev QIdx : Type := (⟨4, ![2, 16, 2048, 64]⟩ : Shape).Idx
/-- Indices of the bias and of the weights: batch, head, query row, key row. -/
abbrev WIdx : Type := (⟨4, ![2, 16, 2048, 2048]⟩ : Shape).Idx

/-- The coordinates of an index, each typed by its literal range. -/
abbrev cb {n : Nat} (x : (⟨4, ![2, 16, 2048, n]⟩ : Shape).Idx) : Fin 2 := x 0
abbrev ch {n : Nat} (x : (⟨4, ![2, 16, 2048, n]⟩ : Shape).Idx) : Fin 16 := x 1
abbrev ci {n : Nat} (x : (⟨4, ![2, 16, 2048, n]⟩ : Shape).Idx) : Fin 2048 := x 2
abbrev cl {n : Nat} (x : (⟨4, ![2, 16, 2048, n]⟩ : Shape).Idx) : Fin n := x 3

/-- An index is its four coordinates. -/
theorem idx_eta {n : Nat} (x : (⟨4, ![2, 16, 2048, n]⟩ : Shape).Idx) : x = ix4 (cb x) (ch x) (ci x) (cl x) :=
  funext fun a => by match a with | ⟨0, _⟩ => rfl | ⟨1, _⟩ => rfl | ⟨2, _⟩ => rfl | ⟨3, _⟩ => rfl

/-- The scaling constant `0.125`. -/
def scale : EReal := Ideal.ofBits .f32 0x3E000000#32

/-- The row of scores of query row `i` of head `(b, h)`. -/
def scoreRow (q k : QIdx → EReal) (bias : WIdx → EReal) (b : Fin 2) (h : Fin 16) (i : Fin 2048) : Fin 2048 → EReal :=
  fun j => (∑ d : Fin 64, (q (ix4 b h i d) * scale) * k (ix4 b h j d)) + bias (ix4 b h i j)

/-- The weights, each row normalised by a product with the reciprocal of its denominator. -/
def weightsMul (q k : QIdx → EReal) (bias : WIdx → EReal) : WIdx → EReal :=
  fun x => wMul (scoreRow q k bias (cb x) (ch x) (ci x)) (cl x)

/-- The weights, each row normalised by a quotient by its denominator. -/
def weightsDiv (q k : QIdx → EReal) (bias : WIdx → EReal) : WIdx → EReal :=
  fun x => wDiv (scoreRow q k bias (cb x) (ch x) (ci x)) (cl x)

/-- The output for given weights: each row of weights applied to the values of its head. -/
def outOf (W : WIdx → EReal) (v : QIdx → EReal) : QIdx → EReal :=
  fun x => ∑ j : Fin 2048, W (ix4 (cb x) (ch x) (ci x) j) * v (ix4 (cb x) (ch x) j (cl x))

/-- Every score of real arrays is a real number. -/
theorem scoreRow_real (q k : QIdx → EReal) (bias : WIdx → EReal) (hq : ∀ i, q i ≠ ⊥ ∧ q i ≠ ⊤)
    (hk : ∀ i, k i ≠ ⊥ ∧ k i ≠ ⊤) (hb : ∀ i, bias i ≠ ⊥ ∧ bias i ≠ ⊤) (b : Fin 2) (h : Fin 16) (i j : Fin 2048) :
    scoreRow q k bias b h i j ≠ ⊥ ∧ scoreRow q k bias b h i j ≠ ⊤ := by
  obtain ⟨q', hq'⟩ := exists_real q hq
  obtain ⟨k', hk'⟩ := exists_real k hk
  obtain ⟨b', hb'⟩ := exists_real bias hb
  unfold scoreRow scale
  rw [ofBits_eighth]
  simp only [hq', hk', hb', ← EReal.coe_mul, coe_sum, ← EReal.coe_add]
  exact ⟨EReal.coe_ne_bot _, EReal.coe_ne_top _⟩

/-- For real arrays the two normalisations give one array of weights. -/
theorem weightsMul_eq_weightsDiv (q k : QIdx → EReal) (bias : WIdx → EReal) (hq : ∀ i, q i ≠ ⊥ ∧ q i ≠ ⊤)
    (hk : ∀ i, k i ≠ ⊥ ∧ k i ≠ ⊤) (hb : ∀ i, bias i ≠ ⊥ ∧ bias i ≠ ⊤) :
    weightsMul q k bias = weightsDiv q k bias := by
  funext x
  haveI : Nonempty (Fin 2048) := ⟨⟨0, by norm_num⟩⟩
  exact wMul_eq_wDiv _ _ (rowDen_ne_zero _ fun j => scoreRow_real q k bias hq hk hb _ _ _ j)

end Cert.Attn

end
-- ==== Proof.KernelOps.lean ====
/-
  The kernel's body at a grid point, read at an index of the blocks it stores.

  The body squeezes its four loaded blocks to matrices, forms the scores `(q · 1/8) kᵀ + bias` of its 512 query rows
  against all 2048 key rows, takes each row's maximum, exponentials and sum, multiplies the exponentials by the
  reciprocal of the sum, stores that as the block of weights, and stores the product of the weights with the values
  as the block of outputs.  Each step is read here at an index; the narrowing to bf16 before each product is the
  identity on extended reals, and each product into a zero accumulator is the plain sum over the contracted axis.
-/
import proofs.«411776_j6262062318235_3_alg».proof.Proof.Spec
import proofs.«411776_j6262062318235_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.Attn.Ker

open Cert.KernelIdeal Cert.KernelIdeal.Gen
open Idealize.ShloMosaic Idealize.ShloMosaic.ValueIdx
open Cert.Attn

/-! ## Layout operations at an index -/

/-- A [1,1,512,64] block viewed as a [512,64] matrix reads `(r, d)` at `(0, 0, r, d)`. -/
theorem squeeze_q (P : Vec Ideal S1x1x512x64 .f32) (r : Fin 512) (d : Fin 64) :
    shapeCast S512x64 P shapeCasts_S1x1x512x64_S512x64 (ix2 r d) = P (ix4 0 0 r d) :=
  shapeCast_apply P _ (ix2 r d) (ix4 0 0 r d) (by
    rw [Shape.rowMajor_val_four, Shape.rowMajor_val_two]
    show ((0 * 1 + 0) * 512 + r.val) * 64 + d.val = r.val * 64 + d.val
    omega)

/-- A [1,1,2048,64] block viewed as a [2048,64] matrix reads `(j, d)` at `(0, 0, j, d)`. -/
theorem squeeze_kv (P : Vec Ideal S1x1x2048x64 .f32) (j : Fin 2048) (d : Fin 64) :
    shapeCast S2048x64 P shapeCasts_S1x1x2048x64_S2048x64 (ix2 j d) = P (ix4 0 0 j d) :=
  shapeCast_apply P _ (ix2 j d) (ix4 0 0 j d) (by
    rw [Shape.rowMajor_val_four, Shape.rowMajor_val_two]
    show ((0 * 1 + 0) * 2048 + j.val) * 64 + d.val = j.val * 64 + d.val
    omega)

/-- A [1,1,512,2048] block viewed as a [512,2048] matrix reads `(r, j)` at `(0, 0, r, j)`. -/
theorem squeeze_b (P : Vec Ideal S1x1x512x2048 .f32) (r : Fin 512) (j : Fin 2048) :
    shapeCast S512x2048 P shapeCasts_S1x1x512x2048_S512x2048 (ix2 r j) = P (ix4 0 0 r j) :=
  shapeCast_apply P _ (ix2 r j) (ix4 0 0 r j) (by
    rw [Shape.rowMajor_val_four, Shape.rowMajor_val_two]
    show ((0 * 1 + 0) * 512 + r.val) * 2048 + j.val = r.val * 2048 + j.val
    omega)

/-- A vector of 512 row values viewed as a column reads row `r` at `r`. -/
theorem column_apply (w : FVec Ideal S512 .f32) (r : Fin 512) :
    shapeCast S512x1 w shapeCasts_S512_S512x1 (ix2 r (0 : Fin 1)) = w (ix1 r) :=
  shapeCast_apply w _ (ix2 r (0 : Fin 1)) (ix1 r) (by
    rw [Shape.rowMajor_val_one, Shape.rowMajor_val_two]
    show r.val = r.val * 1 + 0
    omega)

/-- A column broadcast along the rows reads `(r, j)` at row `r` of the column. -/
theorem along_row_apply (w : FVec Ideal S512x1 .f32) (r : Fin 512) (j : Fin 2048) :
    broadcastTo S512x2048 w broadcasts_S512x1_S512x2048 (ix2 r j) = w (ix2 r (0 : Fin 1)) :=
  broadcastTo_apply w _ (ix2 r j) (ix2 r (0 : Fin 1)) (fun a => by
    match a with
    | ⟨0, _⟩ => show r.val = if (512 : Nat) = 1 then 0 else r.val; rw [if_neg (by decide)]
    | ⟨1, _⟩ => show 0 = if (1 : Nat) = 1 then 0 else j.val; rw [if_pos rfl])

/-! ## The two reductions along a row -/

/-- The row maximum of a [512,2048] matrix from −∞, at row `r`. -/
theorem rowmax_blk (x : FVec Ideal S512x2048 .f32) (r : Fin 512) :
    multiReduction .maximumf [1] S512 x 0xFF800000#32 reduces_S512x2048_S512 (.inl rfl) rfl (ix1 r)
      = rowMax (fun j : Fin 2048 => x (ix2 r j)) := by
  refine (Ideal.multiReduction_maximumf_single x 0xFF800000#32 reduces_S512x2048_S512 (.inl rfl) rfl (ix1 r)).trans ?_
  unfold rowMax
  show Finset.fold max (Ideal.ofBits .f32 0xFF800000#32)
    (fun j : Fin 2048 => x (reduces_S512x2048_S512.lift (ix1 r) j)) Finset.univ = _
  rw [ofBits_neg_inf]
  refine congrArg (fun f => Finset.fold max ⊥ f Finset.univ) (funext fun j => congrArg x (funext fun a => Fin.ext ?_))
  match a with
  | ⟨0, _⟩ => rfl
  | ⟨1, _⟩ => rfl

/-- The row sum of a [512,2048] matrix, at row `r`. -/
theorem rowsum_blk (x : FVec Ideal S512x2048 .f32) (r : Fin 512) :
    multiReduction .add [1] S512 x 0x00000000#32 reduces_S512x2048_S512 (.inl rfl) rfl (ix1 r)
      = ∑ j : Fin 2048, x (ix2 r j) := by
  refine (Ideal.multiReduction_add_single x 0x00000000#32 reduces_S512x2048_S512 (.inl rfl) rfl (ix1 r)).trans ?_
  show (∑ j : Fin 2048, x (reduces_S512x2048_S512.lift (ix1 r) j)) = _
  refine Finset.sum_congr rfl fun j _ => congrArg x (funext fun a => Fin.ext ?_)
  match a with
  | ⟨0, _⟩ => rfl
  | ⟨1, _⟩ => rfl

/-! ## The two matrix products -/

theorem lhs1_0 (i : S512x2048.Idx) (c : dot_S512x64_S2048x64_S512x2048_1_1_0_0_n_n.contr.Idx) : (dot_S512x64_S2048x64_S512x2048_1_1_0_0_n_n.lhsIdx i c 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs1_1 (i : S512x2048.Idx) (c : dot_S512x64_S2048x64_S512x2048_1_1_0_0_n_n.contr.Idx) : (dot_S512x64_S2048x64_S512x2048_1_1_0_0_n_n.lhsIdx i c 1).val = (c ⟨0, by decide⟩).val :=
  dot_S512x64_S2048x64_S512x2048_1_1_0_0_n_n.lhsIdx_val_of_single rfl i c
theorem rhs1_0 (i : S512x2048.Idx) (c : dot_S512x64_S2048x64_S512x2048_1_1_0_0_n_n.contr.Idx) : (dot_S512x64_S2048x64_S512x2048_1_1_0_0_n_n.rhsIdx i c 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs1_1 (i : S512x2048.Idx) (c : dot_S512x64_S2048x64_S512x2048_1_1_0_0_n_n.contr.Idx) : (dot_S512x64_S2048x64_S512x2048_1_1_0_0_n_n.rhsIdx i c 1).val = (c ⟨0, by decide⟩).val :=
  dot_S512x64_S2048x64_S512x2048_1_1_0_0_n_n.rhsIdx_val_of_single rfl i c

/-- Queries against keys, both contracted along the feature axis, into a zero accumulator: entry `(r, j)` is the
    sum over the 64 features of row `r` of the left factor times row `j` of the right. -/
theorem qk_apply (A : FVec Ideal S512x64 .bf16) (B : FVec Ideal S2048x64 .bf16) (r : Fin 512) (j : Fin 2048) :
    matmul dot_S512x64_S2048x64_S512x2048_1_1_0_0_n_n none A B (constant (F := Ideal) S512x2048 .f32 0x00000000#32) (ix2 r j)
      = ∑ d : Fin 64, A (ix2 r d) * B (ix2 j d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 r j) ((ValueIdx.contrEquiv1 dot_S512x64_S2048x64_S512x2048_1_1_0_0_n_n 64 rfl rfl).symm d) = ix2 r d := funext fun a => Fin.ext (by
    match a with
    | ⟨0, _⟩ => exact lhs1_0 _ _
    | ⟨1, _⟩ => exact (lhs1_1 _ _).trans hk)
  have er : dot_S512x64_S2048x64_S512x2048_1_1_0_0_n_n.rhsIdx (ix2 r j) ((ValueIdx.contrEquiv1 dot_S512x64_S2048x64_S512x2048_1_1_0_0_n_n 64 rfl rfl).symm d) = ix2 j d := funext fun a => Fin.ext (by
    match a with
    | ⟨0, _⟩ => exact rhs1_0 _ _
    | ⟨1, _⟩ => exact (rhs1_1 _ _).trans hk)
  rw [el, er]

theorem lhs2_0 (i : S512x64.Idx) (c : dot_S512x2048_S2048x64_S512x64_1_0_0_1_n_n.contr.Idx) : (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs2_1 (i : S512x64.Idx) (c : dot_S512x2048_S2048x64_S512x64_1_0_0_1_n_n.contr.Idx) : (dot_S512x2048_S2048x64_S512x64_1_0_0_1_n_n.lhsIdx i c 1).val = (c ⟨0, by decide⟩).val :=
  dot_S512x2048_S2048x64_S512x64_1_0_0_1_n_n.lhsIdx_val_of_single rfl i c
theorem rhs2_0 (i : S512x64.Idx) (c : dot_S512x2048_S2048x64_S512x64_1_0_0_1_n_n.contr.Idx) : (dot_S512x2048_S2048x64_S512x64_1_0_0_1_n_n.rhsIdx i c 0).val = (c ⟨0, by decide⟩).val :=
  dot_S512x2048_S2048x64_S512x64_1_0_0_1_n_n.rhsIdx_val_of_single rfl i c
theorem rhs2_1 (i : S512x64.Idx) (c : dot_S512x2048_S2048x64_S512x64_1_0_0_1_n_n.contr.Idx) : (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights against values into a zero accumulator: entry `(r, d)` is the sum over the 2048 key rows of the weight
    of row `r` at that key row times the value of that key row at feature `d`. -/
theorem wv_apply (A : FVec Ideal S512x2048 .bf16) (B : FVec Ideal S2048x64 .bf16) (r : Fin 512) (d : Fin 64) :
    matmul dot_S512x2048_S2048x64_S512x64_1_0_0_1_n_n none A B (constant (F := Ideal) S512x64 .f32 0x00000000#32) (ix2 r d)
      = ∑ j : Fin 2048, A (ix2 r j) * B (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun j _ => ?_
  have hk := ValueIdx.contrEquiv1_symm_val dot_S512x2048_S2048x64_S512x64_1_0_0_1_n_n 2048 rfl rfl j
  have el : dot_S512x2048_S2048x64_S512x64_1_0_0_1_n_n.lhsIdx (ix2 r d) ((ValueIdx.contrEquiv1 dot_S512x2048_S2048x64_S512x64_1_0_0_1_n_n 2048 rfl rfl).symm j) = ix2 r j := funext fun a => Fin.ext (by
    match a with
    | ⟨0, _⟩ => exact lhs2_0 _ _
    | ⟨1, _⟩ => exact (lhs2_1 _ _).trans hk)
  have er : dot_S512x2048_S2048x64_S512x64_1_0_0_1_n_n.rhsIdx (ix2 r d) ((ValueIdx.contrEquiv1 dot_S512x2048_S2048x64_S512x64_1_0_0_1_n_n 2048 rfl rfl).symm j) = ix2 j d := funext fun a => Fin.ext (by
    match a with
    | ⟨0, _⟩ => exact (rhs2_0 _ _).trans hk
    | ⟨1, _⟩ => exact rhs2_1 _ _)
  rw [el, er]

end Cert.Attn.Ker

end
-- ==== Proof.KernelBody.lean ====
/-
  What the kernel's body stores at a grid point, as functions of its four loaded blocks.

  For query row `r` of the point's 512 rows the row of scores is
  `j ↦ ∑ d, (qblk[r,d] · 1/8) · kblk[j,d] + biasblk[r,j]` (`blkRow`); the stored block of weights is that row's softmax
  normalised by a product with the reciprocal, and the stored block of outputs at `(r, d)` is the sum over the key
  rows `j` of the weight at `(r, j)` times `vblk[j,d]`.
-/
import proofs.«411776_j6262062318235_3_alg».proof.Proof.KernelOps

noncomputable section

namespace Cert.Attn.Ker

open Cert.KernelIdeal Cert.KernelIdeal.Gen
open Idealize.ShloMosaic Idealize.ShloMosaic.ValueIdx
open Cert.Attn

/-- The row and column of an index of a [1,1,R,C] block, typed by their ranges. -/
abbrev brow {R C : Nat} (y : (⟨4, ![1, 1, R, C]⟩ : Shape).Idx) : Fin R := y 2
abbrev bcol {R C : Nat} (y : (⟨4, ![1, 1, R, C]⟩ : Shape).Idx) : Fin C := y 3

/-- A [512,2048] matrix stored as a [1,1,512,2048] block reads an index at its row and column. -/
theorem unsqueeze_w (M : FVec Ideal S512x2048 .f32) (y : S1x1x512x2048.Idx) :
    shapeCast S1x1x512x2048 M shapeCasts_S512x2048_S1x1x512x2048 y = M (ix2 (brow y) (bcol y)) :=
  shapeCast_apply M _ y (ix2 (brow y) (bcol y)) (by
    have h0 : (y 0).val < 1 := (y 0).isLt
    have h1 : (y 1).val < 1 := (y 1).isLt
    rw [Shape.rowMajor_val_two, Shape.rowMajor_val_four]
    show (y 2).val * 2048 + (y 3).val = (((y 0).val * 1 + (y 1).val) * 512 + (y 2).val) * 2048 + (y 3).val
    omega)

/-- A [512,64] matrix stored as a [1,1,512,64] block reads an index at its row and column. -/
theorem unsqueeze_o (M : FVec Ideal S512x64 .f32) (y : S1x1x512x64.Idx) :
    shapeCast S1x1x512x64 M shapeCasts_S512x64_S1x1x512x64 y = M (ix2 (brow y) (bcol y)) :=
  shapeCast_apply M _ y (ix2 (brow y) (bcol y)) (by
    have h0 : (y 0).val < 1 := (y 0).isLt
    have h1 : (y 1).val < 1 := (y 1).isLt
    rw [Shape.rowMajor_val_two, Shape.rowMajor_val_four]
    show (y 2).val * 64 + (y 3).val = (((y 0).val * 1 + (y 1).val) * 512 + (y 2).val) * 64 + (y 3).val
    omega)

/-! ## The body in three steps -/

/-- The scores of the point's 512 query rows against the 2048 key rows. -/
def scoresB (P0 : Vec Ideal S1x1x512x64 .f32) (P1 : Vec Ideal S1x1x2048x64 .f32) (P3 : Vec Ideal S1x1x512x2048 .f32) :
    FVec Ideal S512x2048 .f32 :=
  addf (matmul dot_S512x64_S2048x64_S512x2048_1_1_0_0_n_n none
      (truncf .bf16 (mulf (shapeCast S512x64 P0 shapeCasts_S1x1x512x64_S512x64)
        (broadcast S512x64 (Scalar.ofBits (F := Ideal) .f32 0x3E000000#32))) bitsLt_bf16_f32)
      (truncf .bf16 (shapeCast S2048x64 P1 shapeCasts_S1x1x2048x64_S2048x64) bitsLt_bf16_f32)
      (constant (F := Ideal) S512x2048 .f32 0x00000000#32))
    (shapeCast S512x2048 P3 shapeCasts_S1x1x512x2048_S512x2048)

/-- The exponentials of a matrix of scores, each row shifted by its maximum. -/
def expsB (x : FVec Ideal S512x2048 .f32) : FVec Ideal S512x2048 .f32 :=
  exp (subf x (broadcastTo S512x2048 (shapeCast S512x1
    (multiReduction .maximumf [1] S512 x 0xFF800000#32 reduces_S512x2048_S512 (.inl rfl) rfl)
    shapeCasts_S512_S512x1) broadcasts_S512x1_S512x2048))

/-- The exponentials times the reciprocal of their row sums. -/
def normB (x : FVec Ideal S512x2048 .f32) : FVec Ideal S512x2048 .f32 :=
  mulf (expsB x) (broadcastTo S512x2048 (divf (broadcast S512x1 (Scalar.ofBits (F := Ideal) .f32 0x3F800000#32))
    (shapeCast S512x1 (multiReduction .add [1] S512 (expsB x) 0x00000000#32 reduces_S512x2048_S512 (.inl rfl) rfl)
      shapeCasts_S512_S512x1)) broadcasts_S512x1_S512x2048)

/-- The body's matrix of weights is those three steps composed. -/
theorem pay2_eq (P0 : Vec Ideal S1x1x512x64 .f32) (P1 : Vec Ideal S1x1x2048x64 .f32) (P3 : Vec Ideal S1x1x512x2048 .f32) :
    k0_pay2 (F := Ideal) P0 P1 P3 = normB (scoresB P0 P1 P3) := rfl

/-- The row of scores of query row `r` of a point, from the point's blocks. -/
def blkRow (P0 : Vec Ideal S1x1x512x64 .f32) (P1 : Vec Ideal S1x1x2048x64 .f32) (P3 : Vec Ideal S1x1x512x2048 .f32)
    (r : Fin 512) : Fin 2048 → EReal :=
  fun j => (∑ d : Fin 64, (P0 (ix4 0 0 r d) * scale) * P1 (ix4 0 0 j d)) + P3 (ix4 0 0 r j)

theorem scoresB_apply (P0 : Vec Ideal S1x1x512x64 .f32) (P1 : Vec Ideal S1x1x2048x64 .f32) (P3 : Vec Ideal S1x1x512x2048 .f32)
    (r : Fin 512) (j : Fin 2048) : scoresB P0 P1 P3 (ix2 r j) = blkRow P0 P1 P3 r j := by
  unfold scoresB blkRow
  show matmul (F := Ideal) dot_S512x64_S2048x64_S512x2048_1_1_0_0_n_n none _ _ _ (ix2 r j) + shapeCast S512x2048 P3 _ (ix2 r j) = _
  rw [qk_apply, squeeze_b]
  refine congrArg (· + _) (Finset.sum_congr rfl fun d _ => ?_)
  show (shapeCast S512x64 P0 _ (ix2 r d) * Ideal.ofBits .f32 0x3E000000#32) * shapeCast S2048x64 P1 _ (ix2 j d) = _
  rw [squeeze_q, squeeze_kv]
  rfl

theorem expsB_apply (x : FVec Ideal S512x2048 .f32) (r : Fin 512) (j : Fin 2048) :
    expsB x (ix2 r j) = rowExp (fun j' : Fin 2048 => x (ix2 r j')) j := by
  unfold expsB rowExp
  show Ideal.exp (x (ix2 r j) - broadcastTo S512x2048 _ _ (ix2 r j)) = Ideal.exp (x (ix2 r j) - rowMax (fun j' : Fin 2048 => x (ix2 r j')))
  rw [along_row_apply, column_apply, rowmax_blk]

theorem normB_apply (x : FVec Ideal S512x2048 .f32) (r : Fin 512) (j : Fin 2048) :
    normB x (ix2 r j) = wMul (fun j' : Fin 2048 => x (ix2 r j')) j := by
  unfold normB wMul rowDen
  show expsB x (ix2 r j) * broadcastTo S512x2048 _ _ (ix2 r j) = _
  rw [along_row_apply]
  show expsB x (ix2 r j) * Ideal.div (Ideal.ofBits .f32 0x3F800000#32) (shapeCast S512x1 _ _ (ix2 r (0 : Fin 1))) = _
  rw [column_apply, rowsum_blk, ofBits_one]
  simp only [expsB_apply]

/-- The body's matrix of weights at `(r, j)`: the softmax of row `r`'s scores at `j`. -/
theorem weights_blk (P0 : Vec Ideal S1x1x512x64 .f32) (P1 : Vec Ideal S1x1x2048x64 .f32) (P3 : Vec Ideal S1x1x512x2048 .f32)
    (r : Fin 512) (j : Fin 2048) : k0_pay2 (F := Ideal) P0 P1 P3 (ix2 r j) = wMul (blkRow P0 P1 P3 r) j := by
  rw [pay2_eq, normB_apply]
  simp only [scoresB_apply]

/-- The stored block of weights at a block index. -/
theorem wblock_apply (P0 : Vec Ideal S1x1x512x64 .f32) (P1 : Vec Ideal S1x1x2048x64 .f32) (P3 : Vec Ideal S1x1x512x2048 .f32)
    (y : S1x1x512x2048.Idx) : k0_pay3 (F := Ideal) P0 P1 P3 y = wMul (blkRow P0 P1 P3 (brow y)) (bcol y) := by
  show shapeCast S1x1x512x2048 (k0_pay2 (F := Ideal) P0 P1 P3) shapeCasts_S512x2048_S1x1x512x2048 y = _
  rw [unsqueeze_w, weights_blk]

/-- The stored block of outputs at a block index. -/
theorem oblock_apply (P0 : Vec Ideal S1x1x512x64 .f32) (P1 P2 : Vec Ideal S1x1x2048x64 .f32) (P3 : Vec Ideal S1x1x512x2048 .f32)
    (y : S1x1x512x64.Idx) :
    k0_pay1 (F := Ideal) (k0_pay4 P0 P1 P3) (k0_pay5 P2) (constant (F := Ideal) S512x64 .f32 0x00000000#32) y
      = ∑ j : Fin 2048, wMul (blkRow P0 P1 P3 (brow y)) j * P2 (ix4 0 0 j (bcol y)) := by
  show shapeCast S1x1x512x64 (matmul (F := Ideal) dot_S512x2048_S2048x64_S512x64_1_0_0_1_n_n none (k0_pay4 (F := Ideal) P0 P1 P3) (k0_pay5 (F := Ideal) P2)
    (constant (F := Ideal) S512x64 .f32 0x00000000#32)) shapeCasts_S512x64_S1x1x512x64 y = _
  rw [unsqueeze_o, wv_apply]
  refine Finset.sum_congr rfl fun j _ => ?_
  show k0_pay2 (F := Ideal) P0 P1 P3 (ix2 (brow y) j) * shapeCast S2048x64 P2 _ (ix2 j (bcol y)) = _
  rw [weights_blk, squeeze_kv]

end Cert.Attn.Ker

end
-- ==== Proof.KernelValue.lean ====
/-
  From what each grid point stores to the two whole result arrays.

  Point `t` of the grid `(b, h, qi)` stages rows `512·qi … 512·qi + 511` of head `(b, h)` of the queries and of the bias,
  all 2048 rows of that head's keys and values, and writes back the same rows of the weights and of the output.  So
  row `r` of the point's blocks is row `i = 512·qi + r` of the head, the point's row of scores is the array's row of
  scores (`blkRow_eq`), and what the point writes back is its block of the whole-array functions `weightsMul` and
  `outOf` of them.  The blocks of the 128 points tile both result arrays, so the arrays end holding those functions.
-/
import proofs.«411776_j6262062318235_3_alg».proof.Proof.KernelBody
import proofs.«411776_j6262062318235_3_alg».proof.Proof.Gen.KernelIdeal.Value

noncomputable section

namespace Cert.Attn.KerValue

open Cert.KernelIdeal Cert.KernelIdeal.Gen Idealize.ShloMosaic Idealize.ShloMosaic.TcCoe Idealize.SL.Sem
open Idealize.ShloMosaic.ValueIdx
open Idealize.ShloMosaic.Pipeline (Dat)
open Cert.Attn Cert.Attn.Ker

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The blocks and the arrays, by their literal types -/

abbrev qblk (c : Dev nD) (t : Fin cfg0.N) : Vec Ideal S1x1x512x64 .f32 := iblk m c 0 t
abbrev kblk (c : Dev nD) (t : Fin cfg0.N) : Vec Ideal S1x1x2048x64 .f32 := iblk m c 1 t
abbrev vblk (c : Dev nD) (t : Fin cfg0.N) : Vec Ideal S1x1x2048x64 .f32 := iblk m c 2 t
abbrev bblk (c : Dev nD) (t : Fin cfg0.N) : Vec Ideal S1x1x512x2048 .f32 := iblk m c 3 t
abbrev qarr (c : Dev nD) : FVec Ideal S2x16x2048x64 .f32 := V m c main_arg0
abbrev karr (c : Dev nD) : FVec Ideal S2x16x2048x64 .f32 := V m c main_arg1
abbrev varr (c : Dev nD) : FVec Ideal S2x16x2048x64 .f32 := V m c main_arg2
abbrev barr (c : Dev nD) : FVec Ideal S2x16x2048x2048 .f32 := V m c main_arg3

/-- The printed index maps, decided over the grid: the head coordinates of every window are the weights window's,
    the row-block coordinate of the queries, the bias and the output is the weights window's, every other block
    coordinate is zero, and the coordinates stay in range. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = win0_5.index t (1 : Fin 4)
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) ≤ 1 ∧ win0_5.index t (1 : Fin 4) ≤ 15 ∧ win0_5.index t (2 : Fin 4) ≤ 3
      ∧ win0_5.index t (3 : Fin 4) = 0) :=
  (by decide +kernel : ∀ t : Fin grid0.N, _)

/-- Every head and row block is some point's. -/
theorem idx_onto : ∀ (b : Fin 2) (h : Fin 16) (qi : Fin 4), ∃ t : Fin cfg0.N, win0_5.index t = ![b.val, h.val, qi.val, 0] :=
  (by decide +kernel : ∀ (b : Fin 2) (h : Fin 16) (qi : Fin 4), ∃ t : Fin grid0.N, win0_5.index t = ![b.val, h.val, qi.val, 0])

/-! ## The point's blocks are rows of the arrays -/

section Blocks

variable (c : Dev nD) (t : Fin cfg0.N) (b : Fin 2) (h : Fin 16) (i : Fin 2048) (r : Fin 512)
  (hb : b.val = win0_5.index t (0 : Fin 4)) (hh : h.val = win0_5.index t (1 : Fin 4))
  (hi : i.val = win0_5.index t (2 : Fin 4) * 512 + r.val)

include hb hh hi in
theorem qblk_at (d : Fin 64) : qblk m c t (ix4 0 0 r d) = qarr m c (ix4 b h i d) := by
  obtain ⟨⟨e0, e1, e2, e3⟩, -⟩ := idx_facts t
  show qarr m c (((cfg0.win 0).blk t).view.emb (ix4 0 0 r d)) = _
  refine congrArg (qarr m c) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = i.val; omega
  | ⟨3, _⟩ => show win0_0.index t (3 : Fin 4) * 64 + 1 * d.val = d.val; omega

include hb hh in
theorem kblk_at (j : Fin 2048) (d : Fin 64) : kblk m c t (ix4 0 0 j d) = karr m c (ix4 b h j d) := by
  obtain ⟨-, ⟨e0, e1, e2, e3⟩, -⟩ := idx_facts t
  show karr m c (((cfg0.win 1).blk t).view.emb (ix4 0 0 j d)) = _
  refine congrArg (karr m c) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * j.val = j.val; omega
  | ⟨3, _⟩ => show win0_1.index t (3 : Fin 4) * 64 + 1 * d.val = d.val; omega

include hb hh in
theorem vblk_at (j : Fin 2048) (d : Fin 64) : vblk m c t (ix4 0 0 j d) = varr m c (ix4 b h j d) := by
  obtain ⟨-, -, ⟨e0, e1, e2, e3⟩, -⟩ := idx_facts t
  show varr m c (((cfg0.win 2).blk t).view.emb (ix4 0 0 j d)) = _
  refine congrArg (varr m c) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * j.val = j.val; omega
  | ⟨3, _⟩ => show win0_2.index t (3 : Fin 4) * 64 + 1 * d.val = d.val; omega

include hb hh hi in
theorem bblk_at (j : Fin 2048) : bblk m c t (ix4 0 0 r j) = barr m c (ix4 b h i j) := by
  obtain ⟨-, -, -, ⟨e0, e1, e2, e3⟩, -⟩ := idx_facts t
  show barr m c (((cfg0.win 3).blk t).view.emb (ix4 0 0 r j)) = _
  refine congrArg (barr m c) (funext fun a => Fin.ext ?_)
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 512 + 1 * r.val = i.val; omega
  | ⟨3, _⟩ => show win0_3.index t (3 : Fin 4) * 2048 + 1 * j.val = j.val; omega

include hb hh hi in
/-- Row `r` of the point's scores is row `i` of head `(b, h)` of the arrays' scores. -/
theorem blkRow_eq : blkRow (qblk m c t) (kblk m c t) (bblk m c t) r = scoreRow (qarr m c) (karr m c) (barr m c) b h i := by
  funext j
  unfold blkRow scoreRow
  rw [bblk_at m c t b h i r hb hh hi j]
  refine congrArg (· + _) (Finset.sum_congr rfl fun d _ => ?_)
  rw [qblk_at m c t b h i r hb hh hi d, kblk_at m c t b h hb hh j d]

end Blocks

/-! ## What a point writes back -/

/-- The array index under index `y` of point `t`'s block of weights, and of outputs. -/
abbrev emb5 (t : Fin cfg0.N) (y : S1x1x512x2048.Idx) : S2x16x2048x2048.Idx := ((cfg0.win 5).blk t).view.emb y
abbrev emb4 (t : Fin cfg0.N) (y : S1x1x512x64.Idx) : S2x16x2048x64.Idx := ((cfg0.win 4).blk t).view.emb y

/-- Point `t` writes back its block of `weightsMul` of the arrays. -/
theorem flushed5_eq (c : Dev nD) (t : Fin cfg0.N) :
    (dats m 0 c).flushed 5 t
      = ((cfg0.win 5).blk t).view.read (Elt Ideal) (weightsMul (qarr m c) (karr m c) (barr m c)) := by
  rw [Cert.KernelIdeal.Value.flushed5]
  unfold out0_5
  rw [View.canon_unit_zero hz]
  simp only [View.ld_unit_zero (S := S1x1x512x64) hz, View.ld_unit_zero (S := S1x1x2048x64) hz,
    View.ld_unit_zero (S := S1x1x512x2048) hz]
  obtain ⟨-, -, -, -, -, ⟨l0, l1, l2, l3⟩⟩ := idx_facts t
  funext y
  show k0_pay3 (F := Ideal) (qblk m c t) (kblk m c t) (bblk m c t) y
    = weightsMul (qarr m c) (karr m c) (barr m c) (emb5 t y)
  have h0 : (y 0).val < 1 := (y 0).isLt
  have h1 : (y 1).val < 1 := (y 1).isLt
  have hb : (cb (emb5 t y)).val = win0_5.index t (0 : Fin 4) := by
    show win0_5.index t (0 : Fin 4) * 1 + 1 * (y 0).val = _; omega
  have hh : (ch (emb5 t y)).val = win0_5.index t (1 : Fin 4) := by
    show win0_5.index t (1 : Fin 4) * 1 + 1 * (y 1).val = _; omega
  have hi : (ci (emb5 t y)).val = win0_5.index t (2 : Fin 4) * 512 + (brow y).val := by
    show win0_5.index t (2 : Fin 4) * 512 + 1 * (y 2).val = _ + (y 2).val; omega
  have hl : cl (emb5 t y) = bcol y := Fin.ext (by
    show win0_5.index t (3 : Fin 4) * 2048 + 1 * (y 3).val = (y 3).val; omega)
  refine (wblock_apply (qblk m c t) (kblk m c t) (bblk m c t) y).trans ?_
  rw [blkRow_eq m c t _ _ _ (brow y) hb hh hi, ← hl]
  rfl

/-- Point `t` writes back its block of `outOf` of those weights and the values. -/
theorem flushed4_eq (c : Dev nD) (t : Fin cfg0.N) :
    (dats m 0 c).flushed 4 t
      = ((cfg0.win 4).blk t).view.read (Elt Ideal) (outOf (weightsMul (qarr m c) (karr m c) (barr m c)) (varr m c)) := by
  rw [Cert.KernelIdeal.Value.flushed4]
  unfold out0_4
  rw [View.canon_unit_zero hz]
  simp only [View.ld_unit_zero (S := S1x1x512x64) hz, View.ld_unit_zero (S := S1x1x2048x64) hz,
    View.ld_unit_zero (S := S1x1x512x2048) hz]
  obtain ⟨-, -, -, -, ⟨e0, e1, e2, e3⟩, ⟨l0, l1, l2, l3⟩⟩ := idx_facts t
  funext y
  show k0_pay1 (F := Ideal) (k0_pay4 (qblk m c t) (kblk m c t) (bblk m c t)) (k0_pay5 (vblk m c t))
      (constant (F := Ideal) S512x64 .f32 0x00000000#32) y
    = ∑ j : Fin 2048, weightsMul (qarr m c) (karr m c) (barr m c) (ix4 (cb (emb4 t y)) (ch (emb4 t y)) (ci (emb4 t y)) j)
        * varr m c (ix4 (cb (emb4 t y)) (ch (emb4 t y)) j (cl (emb4 t y)))
  have h0 : (y 0).val < 1 := (y 0).isLt
  have h1 : (y 1).val < 1 := (y 1).isLt
  have hb : (cb (emb4 t y)).val = win0_5.index t (0 : Fin 4) := by
    show win0_4.index t (0 : Fin 4) * 1 + 1 * (y 0).val = _; omega
  have hh : (ch (emb4 t y)).val = win0_5.index t (1 : Fin 4) := by
    show win0_4.index t (1 : Fin 4) * 1 + 1 * (y 1).val = _; omega
  have hi : (ci (emb4 t y)).val = win0_5.index t (2 : Fin 4) * 512 + (brow y).val := by
    show win0_4.index t (2 : Fin 4) * 512 + 1 * (y 2).val = _ + (y 2).val; omega
  have hl : cl (emb4 t y) = bcol y := Fin.ext (by
    show win0_4.index t (3 : Fin 4) * 64 + 1 * (y 3).val = (y 3).val; omega)
  refine (oblock_apply (qblk m c t) (kblk m c t) (vblk m c t) (bblk m c t) y).trans ?_
  refine Finset.sum_congr rfl fun j _ => ?_
  rw [blkRow_eq m c t _ _ _ (brow y) hb hh hi, vblk_at m c t _ _ hb hh j (bcol y), hl]
  rfl

/-! ## The blocks tile the arrays -/

theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every index of the weights is in the block of the point of its head and of its row's block of 512. -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output likewise. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, ⟨e0, e1, e2, e3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The result arrays, and the run -/

/-- The weights array ends holding `weightsMul` of the argument arrays. -/
theorem final5 (c : Dev nD) : (dats m 0 c).arrAt 5 cfg0.N = weightsMul (qarr m c) (karr m c) (barr m c) :=
  (dats m 0 c).arrAt_eq_of_cover 5 (weightsMul (qarr m c) (karr m c) (barr m c)) (fun t _ => flushed5_eq m c t) cover5

/-- The output array ends holding `outOf` of those weights and the values. -/
theorem final4 (c : Dev nD) :
    (dats m 0 c).arrAt 4 cfg0.N = outOf (weightsMul (qarr m c) (karr m c) (barr m c)) (varr m c) :=
  (dats m 0 c).arrAt_eq_of_cover 4 (outOf (weightsMul (qarr m c) (karr m c) (barr m c)) (varr m c))
    (fun t _ => flushed4_eq m c t) cover4

/-- The kernel's run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v0_0) = outOf (weightsMul (qarr m c) (karr m c) (barr m c)) (varr m c)
      ∧ r.2.mem ((c : Thread nD τ).loc main_v0_1) = weightsMul (qarr m c) (karr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn.KerValue

end
-- ==== Proof.RefValue.lean ====
/-
  The reference, stage by stage, is the specification: its scores are `scoreRow`, its row maximum the fold of `max`
  from −∞ (the extra `max` with −∞ changes nothing), its exponentials, denominators and quotient the row softmax
  normalised by a quotient, and its second contraction `outOf` of those weights.  The host's scale `1 / sqrt 64` is
  the constant `0.125`.
-/
import proofs.«411776_j6262062318235_3_alg».proof.Proof.Spec
import proofs.«411776_j6262062318235_3_alg».proof.Proof.Gen.ReferenceIdeal.Read
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx
open Cert.Attn

variable (q k v : FVec Ideal S2x16x2048x64 .f32) (bias : FVec Ideal S2x16x2048x2048 .f32)

theorem lidx4_eq (x : S2x16x2048x2048.Idx) (d : Fin 64) : lidx_main_v4 x d = ix4 (cb x) (ch x) (ci x) d :=
  funext fun a => Fin.ext (by match a with | ⟨0, _⟩ => rfl | ⟨1, _⟩ => rfl | ⟨2, _⟩ => rfl | ⟨3, _⟩ => rfl)

theorem ridx4_eq (x : S2x16x2048x2048.Idx) (d : Fin 64) : ridx_main_v4 x d = ix4 (cb x) (ch x) (cl x) d :=
  funext fun a => Fin.ext (by match a with | ⟨0, _⟩ => rfl | ⟨1, _⟩ => rfl | ⟨2, _⟩ => rfl | ⟨3, _⟩ => rfl)

/-- The reference's scores at an index are the specification's row of scores at its column. -/
theorem scores_apply (x : S2x16x2048x2048.Idx) :
    val_main_v5 (F := Ideal) q k bias x = scoreRow q k bias (cb x) (ch x) (ci x) (cl x) := by
  rw [val_main_v5_apply, val_main_v4_apply]
  simp only [val_main_v3_apply, val_main_v2_apply, val_main_v1_apply, val_main_cst_0_apply, val_main_v0_apply,
    val_main_cst_apply, Ideal.addf_def, Ideal.mulf_def, Ideal.hostDivf_def, Ideal.hostUnary_sqrt_def, Ideal.ofBits_def,
    scale_eq, lidx4_eq, ridx4_eq]
  unfold scoreRow scale
  rw [← idx_eta x]

/-- The reference's row maximum — the reduce from −∞, then once more `max` with −∞ — is the row's maximum. -/
theorem rowmax_apply (y : S2x16x2048.Idx) :
    val_main_v8 (F := Ideal) q k bias y = rowMax (scoreRow q k bias (y 0) (y 1) (y 2)) := by
  rw [val_main_v8_apply, val_main_v7_apply, val_main_cst_2_apply]
  unfold val_main_v6
  rw [Host.reduce_eq_fold_single FloatOps.maximumf _ _ reducesTo_S2x16x2048x2048_S2x16x2048_d3 (by decide) h_S_ y]
  simp only [Ideal.ofBits_def, Ideal.maximumf_def, val_main_cst_1_apply, ofBits_neg_inf]
  rw [max_eq_right bot_le]
  unfold rowMax
  show Finset.fold max ⊥ (fun j : Fin 2048 => val_main_v5 (F := Ideal) q k bias
    ((by decide : S2x16x2048x2048.Reduces [3] S2x16x2048).lift y j)) Finset.univ = _
  refine congrArg (fun f => Finset.fold max ⊥ f Finset.univ) (funext fun j => ?_)
  rw [scores_apply]
  rfl

/-- The reference's exponentials at an index. -/
theorem exps_apply (x : S2x16x2048x2048.Idx) :
    val_main_v12 (F := Ideal) q k bias x = rowExp (scoreRow q k bias (cb x) (ch x) (ci x)) (cl x) := by
  rw [val_main_v12_apply, val_main_v11_apply, val_main_v10_apply, val_main_v9_apply, rowmax_apply, scores_apply]
  rfl

/-- The reference's row denominator. -/
theorem den_apply (y : S2x16x2048.Idx) :
    val_main_v13 (F := Ideal) q k bias y = rowDen (scoreRow q k bias (y 0) (y 1) (y 2)) := by
  rw [val_main_v13_apply, val_main_cst_3_apply]
  simp only [Ideal.ofBits_def, Ideal.ofBits_zero_f32, zero_add, exps_apply]
  rfl

/-- The reference's weights are the specification's, normalised by the quotient. -/
theorem weights_eq : val_main_v16 (F := Ideal) q k bias = weightsDiv q k bias := by
  funext x
  rw [val_main_v16_apply, val_main_v15_apply, val_main_v14_apply, den_apply, exps_apply]
  rfl

theorem lidx17_eq (x : S2x16x2048x64.Idx) (j : Fin 2048) : lidx_main_v17 x j = ix4 (cb x) (ch x) (ci x) j :=
  funext fun a => Fin.ext (by match a with | ⟨0, _⟩ => rfl | ⟨1, _⟩ => rfl | ⟨2, _⟩ => rfl | ⟨3, _⟩ => rfl)

theorem ridx17_eq (x : S2x16x2048x64.Idx) (j : Fin 2048) : ridx_main_v17 x j = ix4 (cb x) (ch x) j (cl x) :=
  funext fun a => Fin.ext (by match a with | ⟨0, _⟩ => rfl | ⟨1, _⟩ => rfl | ⟨2, _⟩ => rfl | ⟨3, _⟩ => rfl)

/-- The reference's output is those weights applied to the values. -/
theorem out_eq : val_main_v17 (F := Ideal) q k v bias = outOf (weightsDiv q k bias) v := by
  funext x
  rw [val_main_v17_apply, weights_eq]
  simp only [lidx17_eq, ridx17_eq]
  rfl

end Cert.Attn.Ref

end
-- ==== Proof.Finite.lean ====
/-
  From the precondition to "every entry of every input is a real number".

  The precondition is the conjunction of four tests, one per input: every entry's absolute value is below +∞.  On the
  extended reals the absolute value `max x (−x)` of either infinity is +∞, so an entry that passes is a real number.
-/
import proofs.«411776_j6262062318235_3_alg».proof.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic Cert.Pre_finite_inputs

variable [Cert.Pre_finite_inputs.Facts]

instance : Subsingleton S_.Idx := ⟨fun a b => funext fun d => d.elim0⟩

/-- The pattern of `+inf` denotes `⊤`. -/
theorem ofBits_inf : Ideal.ofBits .f32 0x7F800000#32 = ⊤ := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : x ≠ ⊥ ∧ x ≠ ⊤ := by
  rw [ofBits_inf] at h
  induction x using EReal.rec with
  | bot => exfalso; revert h; simp [Ideal.cmp]
  | coe r => exact ⟨EReal.coe_ne_bot r, EReal.coe_ne_top r⟩
  | top => exfalso; revert h; simp [Ideal.cmp]

/-- Under the precondition every entry of the four inputs is a real number. -/
theorem reals_of_pre {q k v : FVec Ideal S2x16x2048x64 .f32} {bias : FVec Ideal S2x16x2048x2048 .f32}
    (h : Cert.Pre_finite_inputs.fn (F := Ideal) q k v bias = fun _ => 1#1) :
    (∀ i, q i ≠ ⊥ ∧ q i ≠ ⊤) ∧ (∀ i, k i ≠ ⊥ ∧ k i ≠ ⊤) ∧ (∀ i, v i ≠ ⊥ ∧ v i ≠ ⊤)
      ∧ (∀ i, bias i ≠ ⊥ ∧ bias i ≠ ⊤) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Attn.Finite

end
-- ==== Proof.lean ====
/-
  Scaled dot-product attention with an additive bias, returning the output and the softmax weights: a tiled kernel
  against the whole-array reference, equal over the extended reals for finite inputs.

  Both programs compute, for every batch `b`, head `h` and query row `i`, the row of scores
  `s_j = ∑ d, (q[b,h,i,d] · c) · k[b,h,j,d] + bias[b,h,i,j]`, its maximum `M` from −∞, the exponentials `e_j = exp (s_j − M)`,
  their sum `D`, the weights `w_j`, and the output `∑ j, w_j · v[b,h,j,d]`.  They differ in three places.  The scale `c`
  is the constant `0.125` in the kernel and `1 / sqrt 64` in the reference: one number, since `sqrt 64 = 8`.  The reference
  takes `max` of `M` with −∞ once more, which changes nothing.  And the kernel's weight is `e_j · (1 / D)` where the
  reference's is `e_j / D`: on the extended reals these agree when `D ≠ 0`, and for finite inputs every score is a real
  number, so `M` is real, every `e_j` is a positive real and `D > 0` — this is the one place the precondition is used.
  The kernel's narrowing of the matrix factors to bf16 is the identity on extended reals, and its grid of 128 points
  (one per head and block of 512 query rows) tiles both result arrays, each point's rows being rows of the arrays.
-/
import proofs.«411776_j6262062318235_3_alg».proof.Defs
import proofs.«411776_j6262062318235_3_alg».proof.Proof.Gen.Kernel
import proofs.«411776_j6262062318235_3_alg».proof.Proof.Gen.Kernel.Skeleton
import proofs.«411776_j6262062318235_3_alg».proof.Proof.Gen.Kernel.Launch
import proofs.«411776_j6262062318235_3_alg».proof.Proof.Gen.Kernel.Points
import proofs.«411776_j6262062318235_3_alg».proof.Proof.Gen.Kernel.Frame
import proofs.«411776_j6262062318235_3_alg».proof.Proof.Gen.KernelIdeal
import proofs.«411776_j6262062318235_3_alg».proof.Proof.Gen.KernelIdeal.Skeleton
import proofs.«411776_j6262062318235_3_alg».proof.Proof.Gen.KernelIdeal.Launch
import proofs.«411776_j6262062318235_3_alg».proof.Proof.Gen.KernelIdeal.Points
import proofs.«411776_j6262062318235_3_alg».proof.Proof.Gen.KernelIdeal.Frame
import proofs.«411776_j6262062318235_3_alg».proof.Proof.Gen.ReferenceIdeal
import proofs.«411776_j6262062318235_3_alg».proof.Proof.Gen.Pre_finite_inputs
import proofs.«411776_j6262062318235_3_alg».proof.Proof.Gen.KernelIdeal.Value
import proofs.«411776_j6262062318235_3_alg».proof.Proof.Gen.ReferenceIdeal.Run
import proofs.«411776_j6262062318235_3_alg».proof.Proof.Gen.ReferenceIdeal.Read
import proofs.«411776_j6262062318235_3_alg».proof.Proof.KernelValue
import proofs.«411776_j6262062318235_3_alg».proof.Proof.RefValue
import proofs.«411776_j6262062318235_3_alg».proof.Proof.Finite
import Idealize.ShloMosaic.Adequacy
import Idealize.ShloMosaic.Init

noncomputable section

namespace Cert.Proof

open Idealize.ShloMosaic Idealize.SL.Sem
open Cert.Attn

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the four inputs both programs end with the output at `outOf` of the weights and the
    values and with the weights at the rows' softmax: the kernel normalises each row by a product with the reciprocal
    of its denominator, the reference by a quotient, and for the finite inputs the precondition grants every
    denominator is positive, so the two arrays of weights are one. -/
theorem algebraic : Cert.algebraic_KernelIdeal_ReferenceIdeal := by
  intro m ρ m' ρ' hpre hagree
  refine ⟨fun c => outOf (weightsMul (KerValue.qarr m c) (KerValue.karr m c) (KerValue.barr m c)) (KerValue.varr m c),
    fun c => weightsMul (KerValue.qarr m c) (KerValue.karr m c) (KerValue.barr m c), KerValue.run m ρ, ?_⟩
  refine (θ_run Cert.ReferenceIdeal.defs _ _).mono (fun _ h c => ?_) (Cert.ReferenceIdeal.Value.run (F := Ideal) m' ρ')
  obtain ⟨hq, hk, -, hb⟩ := Finite.reals_of_pre (hpre c)
  have hW := weightsMul_eq_weightsDiv (KerValue.qarr m c) (KerValue.karr m c) (KerValue.barr m c) hq hk hb
  refine ⟨(h c).1.trans ?_, (h c).2.1.trans ?_, (h c).2.2⟩
  · rw [Cert.ReferenceIdeal.Read.val_main_v17_eq, Ref.out_eq, (hagree c).1, (hagree c).2.1, (hagree c).2.2.1,
      (hagree c).2.2.2]
    exact congrArg (fun W => outOf W (KerValue.varr m c)) hW.symm
  · rw [Cert.ReferenceIdeal.Read.val_main_v16_eq, Ref.weights_eq, (hagree c).1, (hagree c).2.1, (hagree c).2.2.2]
    exact hW.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
